-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x48 : S_.BroadcastsInDim S16x48 (![] : Fin 0 → Fin S16x48.rank)
  reducesTo_S16x48_S_d0_1 : S16x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S32 .f32) (main_arg6 : FVec F S32x16 .f32) (main_arg7 : FVec F S16 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : FVec F S16x48 .f32) (main_arg3 : FVec F S48 .f32) (main_arg4 : FVec F S48x32 .f32) (main_arg5 : FVec F S32 .f32) (main_arg6 : FVec F S32x16 .f32) (main_arg7 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x48 .f32 := Host.absf main_arg2
  let main_cst_0 : FVec F S_ .f32 := constant S_ .f32 0x7F800000#32
  let main_v5 : FVec F S16x48 .f32 := broadcastInDim S16x48 ![] bcast_S_S16x48 main_cst_0
  let main_v6 : IVec S16x48 1 := cmpf .olt main_v4 main_v5
  let main_c_1 : IVec S_ 1 := constantI S_ 1 1#1
  let main_v7 : IVec S_ 1 := (fun x v => Host.reduce IntOp.andi x v reducesTo_S16x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_arg6 main_arg7 main_v13 main_v16
-- ==== Kernel.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x48 : Shape := ⟨2, ![100000, 48]⟩
abbrev S5000x16 : Shape := ⟨2, ![5000, 16]⟩
abbrev S5000x48 : Shape := ⟨2, ![5000, 48]⟩
abbrev S3300000x48 : Shape := ⟨2, ![3300000, 48]⟩
abbrev S1x48 : Shape := ⟨2, ![1, 48]⟩
abbrev S100000x32 : Shape := ⟨2, ![100000, 32]⟩
abbrev S5000x32 : Shape := ⟨2, ![5000, 32]⟩
abbrev S3300000x32 : Shape := ⟨2, ![3300000, 32]⟩
abbrev S1x32 : Shape := ⟨2, ![1, 32]⟩
abbrev S1x16 : Shape := ⟨2, ![1, 16]⟩

abbrev nBuf : Space → Nat
  | .hbm => 86
  | .vmem => 18
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x48, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x48, .f32⟩
  | .hbm, ⟨58, _⟩ => ⟨S3300000x1, .f32⟩
  | .hbm, ⟨59, _⟩ => ⟨S3300000x48, .f32⟩
  | .hbm, ⟨60, _⟩ => ⟨S3300000x48, .f32⟩
  | .hbm, ⟨61, _⟩ => ⟨S_, .f32⟩
  | .hbm, ⟨62, _⟩ => ⟨S100000x48, .f32⟩
  | .hbm, ⟨63, _⟩ => ⟨S3300000x1, .i32⟩
  | .hbm, ⟨64, _⟩ => ⟨S100000x48, .f32⟩
  | .hbm, ⟨65, _⟩ => ⟨S1x48, .f32⟩
  | .hbm, ⟨66, _⟩ => ⟨S100000x32, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x32, .f32⟩
  | .hbm, ⟨76, _⟩ => ⟨S3300000x1, .f32⟩
  | .hbm, ⟨77, _⟩ => ⟨S3300000x32, .f32⟩
  | .hbm, ⟨78, _⟩ => ⟨S3300000x32, .f32⟩
  | .hbm, ⟨79, _⟩ => ⟨S_, .f32⟩
  | .hbm, ⟨80, _⟩ => ⟨S100000x32, .f32⟩
  | .hbm, ⟨81, _⟩ => ⟨S3300000x1, .i32⟩
  | .hbm, ⟨82, _⟩ => ⟨S100000x32, .f32⟩
  | .hbm, ⟨83, _⟩ => ⟨S1x32, .f32⟩
  | .hbm, ⟨84, _⟩ => ⟨S1x16, .f32⟩
  | .hbm, ⟨85, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S16x48, .f32⟩
  | .local _ .vmem, ⟨3, _⟩ => ⟨S5000x48, .f32⟩
  | .local _ .vmem, ⟨4, _⟩ => ⟨S5000x48, .f32⟩
  | .local _ .vmem, ⟨5, _⟩ => ⟨S5000x48, .f32⟩
  | .local _ .vmem, ⟨6, _⟩ => ⟨S5000x48, .f32⟩
  | .local _ .vmem, ⟨7, _⟩ => ⟨S1x48, .f32⟩
  | .local _ .vmem, ⟨8, _⟩ => ⟨S48x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x48_S16x48_0_0 : ∀ a, (![0, 0] : Fin 2 → Nat) a + S16x48.size a ≤ S16x48.size a
  h_S16x48 : 0 < S16x48.numel
  inb_S5000x48_S5000x48_0_0 : ∀ a, (![0, 0] : Fin 2 → Nat) a + S5000x48.size a ≤ S5000x48.size a
  h_S5000x48 : 0 < S5000x48.numel
  bcast_S3300000x1_S3300000x48_0_1 : S3300000x1.BroadcastsInDim S3300000x48 (![0, 1] : Fin 2 → Fin S3300000x48.rank)
  bcast_S_S100000x48 : S_.BroadcastsInDim S100000x48 (![] : Fin 0 → Fin S100000x48.rank)
  shapeCasts_S48_S1x48 : S48.ShapeCasts S1x48
  shapeCasts_S5000x48_S5000x48 : S5000x48.ShapeCasts S5000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  inb_S48x32_S48x32_0_0 : ∀ a, (![0, 0] : Fin 2 → Nat) a + S48x32.size a ≤ S48x32.size a
  h_S48x32 : 0 < S48x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S16_S1x16 : S16.ShapeCasts S1x16
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x16_S16x48_S5000x48_1_0_0_1_n_n_wf : DotDims.WF S5000x16 S16x48 S5000x48 [1] [0] [0] [1] [] []
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S5000x48_S48x32_S5000x32_1_0_0_1_n_n_wf : DotDims.WF S5000x48 S48x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x48.size a ≤ S16x48.size a
  hwx0_1 : ∀ i : grid0.Coords, EltTy.bits .f32 = 32 ∨ (Rect.block (s := S16x48) S16x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x32.size a ≤ S48x32.size a
  hwx1_2 : ∀ i : grid1.Coords, EltTy.bits .f32 = 32 ∨ (Rect.block (s := S48x32) S48x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x16_S16x48_S5000x48_1_0_0_1_n_n : DotDims S5000x16 S16x48 S5000x48 where
  lhsContracting := [1]
  rhsContracting := [0]
  lhsNonContracting := [0]
  rhsNonContracting := [1]
  lhsBatch := []
  rhsBatch := []
  wf := dot_S5000x16_S16x48_S5000x48_1_0_0_1_n_n_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S5000x48_S48x32_S5000x32_1_0_0_1_n_n : DotDims S5000x48 S48x32 S5000x32 where
  lhsContracting := [1]
  rhsContracting := [0]
  lhsNonContracting := [0]
  rhsNonContracting := [1]
  lhsBatch := []
  rhsBatch := []
  wf := dot_S5000x48_S48x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S48x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x48 : Shape := ⟨2, ![16, 48]⟩
abbrev S48 : Shape := ⟨1, ![48]⟩
abbrev S48x32 : Shape := ⟨2, ![48, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x48 : Shape := ⟨2, ![100000, 48]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x48 : Shape := ⟨2, ![3300000, 48]⟩
abbrev S1x48 : Shape := ⟨2, ![1, 48]⟩
abbrev S100000x32 : Shape := ⟨2, ![100000, 32]⟩
abbrev S3300000x32 : Shape := ⟨2, ![3300000, 32]⟩
abbrev S1x32 : Shape := ⟨2, ![1, 32]⟩
abbrev S1x16 : Shape := ⟨2, ![1, 16]⟩

abbrev nBuf : Space → Nat
  | .hbm => 134
  | .vmem => 0
  | .smem => 0
  | _ => 0

abbrev hbmTy0_0 (i : Nat) : BufTy := match i % 128 with
  | 0 => ⟨S100000x16, .f32⟩
  | 1 => ⟨S2x3200000, .i32⟩
  | 2 => ⟨S16x48, .f32⟩
  | 3 => ⟨S48, .f32⟩
  | 4 => ⟨S48x32, .f32⟩
  | 5 => ⟨S32, .f32⟩
  | 6 => ⟨S32x16, .f32⟩
  | 7 => ⟨S16, .f32⟩
  | 8 => ⟨S1x3200000, .i32⟩
  | 9 => ⟨S3200000, .i32⟩
  | 10 => ⟨S1x3200000, .i32⟩
  | 11 => ⟨S3200000, .i32⟩
  | 12 => ⟨S100000x48, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x48, .f32⟩
  | 58 => ⟨S3300000x1, .f32⟩
  | 59 => ⟨S3300000x48, .f32⟩
  | 60 => ⟨S3300000x48, .f32⟩
  | 61 => ⟨S_, .f32⟩
  | 62 => ⟨S100000x48, .f32⟩
  | 63 => ⟨S3300000x1, .i32⟩
  | 64 => ⟨S100000x48, .f32⟩
  | 65 => ⟨S1x48, .f32⟩
  | 66 => ⟨S100000x48, .f32⟩
  | 67 => ⟨S100000x48, .f32⟩
  | 68 => ⟨S_, .f32⟩
  | 69 => ⟨S100000x48, .f32⟩
  | 70 => ⟨S100000x48, .f32⟩
  | 71 => ⟨S100000x32, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x32, .f32⟩
  | 117 => ⟨S3300000x1, .f32⟩
  | 118 => ⟨S3300000x32, .f32⟩
  | 119 => ⟨S3300000x32, .f32⟩
  | 120 => ⟨S_, .f32⟩
  | 121 => ⟨S100000x32, .f32⟩
  | 122 => ⟨S3300000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x16, .f32⟩

abbrev hbmTy0_1 (i : Nat) : BufTy := match i % 128 with
  | 0 => ⟨S100000x32, .f32⟩
  | 1 => ⟨S100000x32, .f32⟩
  | 2 => ⟨S100000x16, .f32⟩
  | 3 => ⟨S1x16, .f32⟩
  | 4 => ⟨S100000x16, .f32⟩
  | 5 => ⟨S100000x16, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x48_0_1 : S3300000x1.BroadcastsInDim S3300000x48 (![0, 1] : Fin 2 → Fin S3300000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x16_S16x48_S100000x48_1_0_0_1_n_n_wf : DotDims.WF S100000x16 S16x48 S100000x48 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S100000x48_S48x32_S100000x32_1_0_0_1_n_n_wf : DotDims.WF S100000x48 S48x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []

variable [Facts₀]

def dot_S100000x16_S16x48_S100000x48_1_0_0_1_n_n : DotDims S100000x16 S16x48 S100000x48 where
  lhsContracting := [1]
  rhsContracting := [0]
  lhsNonContracting := [0]
  rhsNonContracting := [1]
  lhsBatch := []
  rhsBatch := []
  wf := dot_S100000x16_S16x48_S100000x48_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.RowProduct.lean ====
/-
  A product of two matrices read entry by entry.

  For operands of shapes [A, n] and [n, B] contracted over the axis of extent n (the left operand's second axis, the
  right operand's first) with no batch axis, the contraction at the result's entry (p, q) is the sum over i < n of the
  left operand's entry (p, i) times the right operand's entry (i, q). Over the extended reals both the vector unit's
  product accumulated into zeros and the host's general product are exactly this sum, so a product computed on a block
  of rows is the whole product restricted to those rows: entry (p, q) reads row p of the left operand and nothing else
  of it.
-/
import Idealize.ShloMosaic.PureOps.Ideal.Laws
import Idealize.ShloMosaic.Lib.ValueIdx
import proofs.«177915_j1675037246076_1_alg».proof.Proof.LibContraction

noncomputable section

open scoped BigOperators

namespace Cert.RowProduct

open Idealize.ShloMosaic Idealize.ShloMosaic.ValueIdx Cert.Lib.Contraction

variable {A n B : Nat} (d : DotDims ⟨2, ![A, n]⟩ ⟨2, ![n, B]⟩ ⟨2, ![A, B]⟩)

/-- At the contraction position `i` the left operand is read at (p, i). -/
theorem lhs_at (hc : d.lhsContracting = [1]) (hb : d.lhsBatch = []) (hn : d.lhsNonContracting = [0])
    (p : Fin A) (q : Fin B) (i : Fin n) :
    d.lhsIdx (ix2 p q) ((contrFin d hc n rfl).symm i) = ix2 p i := by
  funext a
  apply Fin.ext
  match a with
  | ⟨0, _⟩ => exact lhs_free d hb hn (ix2 p q) _ Nat.zero_lt_two
  | ⟨1, _⟩ => exact lhs_contracted d hc n rfl (ix2 p q) i

/-- At the contraction position `i` the right operand is read at (i, q). -/
theorem rhs_at (hc : d.lhsContracting = [1]) (hc' : d.rhsContracting = [0]) (hb : d.lhsBatch = [])
    (hb' : d.rhsBatch = []) (hn : d.lhsNonContracting = [0]) (hn' : d.rhsNonContracting = [1])
    (p : Fin A) (q : Fin B) (i : Fin n) :
    d.rhsIdx (ix2 p q) ((contrFin d hc n rfl).symm i) = ix2 i q := by
  funext a
  apply Fin.ext
  match a with
  | ⟨0, _⟩ => exact rhs_contracted d hc hc' n rfl (ix2 p q) i
  | ⟨1, _⟩ => exact rhs_free d hb hb' hn hn' (ix2 p q) _ Nat.one_lt_two

/-- The contraction at entry (p, q) is the sum over `i < n` of left (p, i) times right (i, q). -/
theorem contraction_at (hc : d.lhsContracting = [1]) (hc' : d.rhsContracting = [0]) (hb : d.lhsBatch = [])
    (hb' : d.rhsBatch = []) (hn : d.lhsNonContracting = [0]) (hn' : d.rhsNonContracting = [1])
    (l : (⟨2, ![A, n]⟩ : Shape).Idx → EReal) (r : (⟨2, ![n, B]⟩ : Shape).Idx → EReal) (p : Fin A) (q : Fin B) :
    ∑ k : d.contr.Idx, l (d.lhsIdx (ix2 p q) k) * r (d.rhsIdx (ix2 p q) k) = ∑ i : Fin n, l (ix2 p i) * r (ix2 i q) :=
  (sum_contr d hc n rfl _).trans (Finset.sum_congr rfl fun i _ => by
    rw [lhs_at d hc hb hn p q i, rhs_at d hc hc' hb hb' hn hn' p q i])

/-- The vector unit's product into a zero accumulator, at entry (p, q). -/
theorem matmul_zero_at {φ₁ φ₂ : FTy} (prec : Option ContractPrecision) (hc : d.lhsContracting = [1])
    (hc' : d.rhsContracting = [0]) (hb : d.lhsBatch = []) (hb' : d.rhsBatch = []) (hn : d.lhsNonContracting = [0])
    (hn' : d.rhsNonContracting = [1]) (l : FVec Ideal ⟨2, ![A, n]⟩ φ₁) (r : FVec Ideal ⟨2, ![n, B]⟩ φ₂)
    (p : Fin A) (q : Fin B) :
    FloatOps.matmul d prec l r (constant ⟨2, ![A, B]⟩ .f32 0x00000000#32) (ix2 p q)
      = ∑ i : Fin n, l (ix2 p i) * r (ix2 i q) :=
  (Ideal.matmul_constant_zero_apply d prec l r (ix2 p q)).trans (contraction_at d hc hc' hb hb' hn hn' l r p q)

/-- The host's general product, at entry (p, q). -/
theorem dotGeneral_at {φ₁ φ₂ : FTy} (prec : Option ContractPrecision) (sched : HostSchedule)
    (hc : d.lhsContracting = [1]) (hc' : d.rhsContracting = [0]) (hb : d.lhsBatch = []) (hb' : d.rhsBatch = [])
    (hn : d.lhsNonContracting = [0]) (hn' : d.rhsNonContracting = [1]) (l : FVec Ideal ⟨2, ![A, n]⟩ φ₁)
    (r : FVec Ideal ⟨2, ![n, B]⟩ φ₂) (p : Fin A) (q : Fin B) :
    FloatOps.dotGeneral d prec sched l r (ix2 p q) = ∑ i : Fin n, l (ix2 p i) * r (ix2 i q) :=
  (Ideal.dotGeneral_apply d prec sched l r (ix2 p q)).trans (contraction_at d hc hc' hb hb' hn hn' l r p q)

end Cert.RowProduct

end
-- ==== Proof.Payload.lean ====
/-
  What each of the three kernel bodies stores, entry by entry, over the extended reals.

  Rounding to the narrower float format is the identity there and the product accumulates into zeros, so
  * the first body stores, at (p, q), the sum over i < 16 of x(p, i) · w(i, q);
  * the second stores the sum over i < 48 of max(a(p, i) + b(0, i), 0) · w(i, q): the bias row is added to every row of
    the block, the result clipped below at zero, and that is the left factor of the product;
  * the third stores the same with 32 terms, plus the second bias row's entry (0, q).
  Each entry (p, q) reads row p of the block and no other row.
-/
import proofs.«177915_j1675037246076_1_alg».proof.Proof.Gen.KernelIdeal.Skeleton
import proofs.«177915_j1675037246076_1_alg».proof.Proof.RowProduct
import Idealize.ShloMosaic.Lib.Pipeline.Value

noncomputable section

open scoped BigOperators

namespace Cert.Bridge

open Idealize.ShloMosaic Idealize.ShloMosaic.ValueIdx Cert.KernelIdeal Cert.KernelIdeal.Gen

/-- A row of biases added to every row of a block and the sum clipped below at zero, at entry (p, i). -/
theorem relu_bias_at {A n : Nat} (a : FVec Ideal ⟨2, ![A, n]⟩ .f32) (b : FVec Ideal ⟨2, ![1, n]⟩ .f32)
    (h1 : (⟨2, ![A, n]⟩ : Shape).ShapeCasts ⟨2, ![A, n]⟩) (h2 : (⟨2, ![1, n]⟩ : Shape).ShapeCasts ⟨2, ![1, n]⟩)
    (h3 : (⟨2, ![1, n]⟩ : Shape).Broadcasts ⟨2, ![A, n]⟩) (p : Fin A) (i : Fin n) :
    maximumf (addf (shapeCast ⟨2, ![A, n]⟩ a h1) (broadcastTo ⟨2, ![A, n]⟩ (shapeCast ⟨2, ![1, n]⟩ b h2) h3))
        (broadcast ⟨2, ![A, n]⟩ (FloatOps.ofBits (F := Ideal) .f32 0x00000000#32)) (ix2 p i)
      = max (a (ix2 p i) + b (ix2 0 i)) 0 := by
  show max (shapeCast ⟨2, ![A, n]⟩ a h1 (ix2 p i) + broadcastTo ⟨2, ![A, n]⟩ (shapeCast ⟨2, ![1, n]⟩ b h2) h3 (ix2 p i))
      (Ideal.ofBits .f32 0x00000000#32) = _
  rw [shapeCast_self, shapeCast_self, Ideal.ofBits_zero_f32, broadcastTo_apply b h3 (ix2 p i) (ix2 0 i) ?_]
  intro ax
  match ax with
  | ⟨0, _⟩ => rfl
  | ⟨1, _⟩ =>
    show i.val = if n = 1 then 0 else i.val
    split
    · have := i.isLt; omega
    · rfl

/-- A row added to every row of a block, at entry (p, q). -/
theorem add_row_at {A n : Nat} (v : FVec Ideal ⟨2, ![A, n]⟩ .f32) (b : FVec Ideal ⟨2, ![1, n]⟩ .f32)
    (h2 : (⟨2, ![1, n]⟩ : Shape).ShapeCasts ⟨2, ![1, n]⟩) (h3 : (⟨2, ![1, n]⟩ : Shape).Broadcasts ⟨2, ![A, n]⟩)
    (p : Fin A) (q : Fin n) :
    addf v (broadcastTo ⟨2, ![A, n]⟩ (shapeCast ⟨2, ![1, n]⟩ b h2) h3) (ix2 p q) = v (ix2 p q) + b (ix2 0 q) := by
  show v (ix2 p q) + broadcastTo ⟨2, ![A, n]⟩ (shapeCast ⟨2, ![1, n]⟩ b h2) h3 (ix2 p q) = _
  rw [shapeCast_self, broadcastTo_apply b h3 (ix2 p q) (ix2 0 q) ?_]
  intro ax
  match ax with
  | ⟨0, _⟩ => rfl
  | ⟨1, _⟩ =>
    show q.val = if n = 1 then 0 else q.val
    split
    · have := q.isLt; omega
    · rfl

/-- The first body: a block of rows of x times w. -/
theorem pay0_at (x : FVec Ideal S5000x16 .f32) (w : FVec Ideal S16x48 .f32) (p : Fin 5000) (q : Fin 48) :
    k0_pay1 (F := Ideal) x w (ix2 p q) = ∑ i : Fin 16, x (ix2 p i) * w (ix2 i q) := by
  unfold k0_pay1
  exact Cert.RowProduct.matmul_zero_at dot_S5000x16_S16x48_S5000x48_1_0_0_1_n_n none rfl rfl rfl rfl rfl rfl _ _ p q

/-- The second body: bias and clip, then times w. -/
theorem pay1_at (a : FVec Ideal S5000x48 .f32) (b : FVec Ideal S1x48 .f32) (w : FVec Ideal S48x32 .f32)
    (p : Fin 5000) (q : Fin 32) :
    k1_pay1 (F := Ideal) a b w (ix2 p q) = ∑ i : Fin 48, max (a (ix2 p i) + b (ix2 0 i)) 0 * w (ix2 i q) := by
  unfold k1_pay1
  refine (Cert.RowProduct.matmul_zero_at dot_S5000x48_S48x32_S5000x32_1_0_0_1_n_n none rfl rfl rfl rfl rfl rfl _ _ p q).trans ?_
  refine Finset.sum_congr rfl fun i _ => ?_
  exact congrArg (· * w (ix2 i q)) (relu_bias_at a b _ _ _ p i)

/-- The third body: bias and clip, times w, plus the second bias. -/
theorem pay2_at (a : FVec Ideal S5000x32 .f32) (b : FVec Ideal S1x32 .f32) (w : FVec Ideal S32x16 .f32)
    (b' : FVec Ideal S1x16 .f32) (p : Fin 5000) (q : Fin 16) :
    k2_pay1 (F := Ideal) a b w b' (ix2 p q)
      = (∑ i : Fin 32, max (a (ix2 p i) + b (ix2 0 i)) 0 * w (ix2 i q)) + b' (ix2 0 q) := by
  unfold k2_pay1
  refine (add_row_at _ b' _ _ p q).trans ?_
  refine congrArg (· + b' (ix2 0 q)) ?_
  refine (Cert.RowProduct.matmul_zero_at dot_S5000x32_S32x16_S5000x16_1_0_0_1_n_n none rfl rfl rfl rfl rfl rfl _ _ p q).trans ?_
  refine Finset.sum_congr rfl fun i _ => ?_
  exact congrArg (· * w (ix2 i q)) (relu_bias_at a b _ _ _ p i)

end Cert.Bridge

end
-- ==== Proof.Region0.lean ====
/-
  The first kernel: what its result array holds when all twenty grid points have run.

  Point t of the grid loads rows t·5000 … t·5000 + 4999 of x and the whole of w, and writes back the product of that
  block of rows with w as rows t·5000 … of the result. Entry (p, q) of a point's block is the sum over k < 16 of the
  block's (p, k) times w's (k, q), so what the point writes back is the restriction, to its rows, of ONE function of
  the two arrays: `prod16 x w`, whose entry (r, q) is the sum over k of x(r, k) · w(k, q). The twenty blocks of rows
  tile the array (row r lies in block r / 5000), so the array ends holding `prod16 x w` everywhere.
  All of it is stated at the contents `V` the region is entered with, whatever they are.
-/
import proofs.«177915_j1675037246076_1_alg».proof.Proof.Gen.KernelIdeal.Frame
import proofs.«177915_j1675037246076_1_alg».proof.Proof.Payload

set_option maxRecDepth 16384

noncomputable section

open scoped BigOperators

namespace Cert.Bridge.First

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The two arrays the kernel reads, as the region finds them. -/
abbrev arrX (c : Dev nD) : FVec Ideal S100000x16 .f32 := V c main_arg0
abbrev arrW (c : Dev nD) : FVec Ideal S16x48 .f32 := V c main_arg2

theorem hz : (![0, 0] : Fin 2 → Nat) = fun _ => 0 := funext fun a => by fin_cases a <;> rfl

/-- The product of a 100000 × 16 matrix with a 16 × 48 one, entry by entry. -/
def prod16 (x : S100000x16.Idx → EReal) (w : S16x48.Idx → EReal) : S100000x48.Idx → EReal :=
  fun i => ∑ k : Fin 16, x (ix2 (i 0) k) * w (ix2 k (i 1))

/-- The windows' block indices at point t: the row-blocked windows are at block t, the weights at block 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := by
  have h := t.isLt
  have hN : cfg0.N = 20 := N_0
  omega

/-- Row p of point t's block is row t·5000 + p of the array. -/
def row (t : Fin cfg0.N) (p : Fin 5000) : Fin 100000 :=
  ⟨t.val * 5000 + p.val, by have := point_lt t; have := p.isLt; omega⟩

theorem emb_x (t : Fin cfg0.N) (p : Fin 5000) (k : Fin 16) :
    ((cfg0.win 0).blk t).view.emb (ix2 p k) = ix2 (row t p) k := by
  obtain ⟨e0, e1, -, -, -, -⟩ := block_index t
  funext a
  apply Fin.ext
  match a with
  | ⟨0, _⟩ => show win0_0.index t (0 : Fin 2) * 5000 + 1 * p.val = t.val * 5000 + p.val; omega
  | ⟨1, _⟩ => show win0_0.index t (1 : Fin 2) * 16 + 1 * k.val = k.val; omega

theorem emb_w (t : Fin cfg0.N) (k : Fin 16) (q : Fin 48) :
    ((cfg0.win 1).blk t).view.emb (ix2 k q) = ix2 k q := by
  obtain ⟨-, -, e2, e3, -, -⟩ := block_index t
  funext a
  apply Fin.ext
  match a with
  | ⟨0, _⟩ => show win0_1.index t (0 : Fin 2) * 16 + 1 * k.val = k.val; omega
  | ⟨1, _⟩ => show win0_1.index t (1 : Fin 2) * 48 + 1 * q.val = q.val; omega

theorem emb_out (t : Fin cfg0.N) (p : Fin 5000) (q : Fin 48) :
    ((cfg0.win 2).blk t).view.emb (ix2 p q) = ix2 (row t p) q := by
  obtain ⟨-, -, -, -, e4, e5⟩ := block_index t
  funext a
  apply Fin.ext
  match a with
  | ⟨0, _⟩ => show win0_2.index t (0 : Fin 2) * 5000 + 1 * p.val = t.val * 5000 + p.val; omega
  | ⟨1, _⟩ => show win0_2.index t (1 : Fin 2) * 48 + 1 * q.val = q.val; omega

/-- What point t writes back is its block of rows of `prod16`. -/
theorem written (c : Dev nD) (t : Fin cfg0.N) :
    (dat0 V c).flushed 2 t = ((cfg0.win 2).blk t).view.read (Elt Ideal) (prod16 (arrX V c) (arrW V c)) := by
  show (cfg0.win 2).cut (grid0.coords t) ((dat0 V c).after 2 t) = _
  rw [after0_2]
  unfold out0_2
  rw [View.canon_unit_zero hz]
  simp only [View.ld_unit_zero (S := S5000x16) hz, View.ld_unit_zero (S := S16x48) hz]
  funext j
  obtain ⟨p, q, rfl⟩ : ∃ (p : Fin 5000) (q : Fin 48), j = ix2 p q := ⟨j 0, j 1, eq_ix2 j⟩
  show k0_pay1 (F := Ideal) (iblk0 V c 0 t) (iblk0 V c 1 t) (ix2 p q) = _
  rw [View.read_apply, emb_out t p q]
  show _ = ∑ k : Fin 16, arrX V c (ix2 (row t p) k) * arrW V c (ix2 k q)
  refine (pay0_at (iblk0 V c 0 t) (iblk0 V c 1 t) p q).trans ?_
  refine Finset.sum_congr rfl fun k _ => ?_
  show arrX V c (((cfg0.win 0).blk t).view.emb (ix2 p k)) * arrW V c (((cfg0.win 1).blk t).view.emb (ix2 k q)) = _
  rw [emb_x t p k, emb_w t k q]

/-- An index of the result array lies in point t's block iff its coordinates are in the block's ranges. -/
theorem mem_block (t : Fin cfg0.N) (i : S100000x48.Idx) :
    i ∈ ((cfg0.win 2).blk t).view.set ↔ ∀ a : Fin 2, win0_2.index t a * S5000x48.size a ≤ (i a).val
      ∧ (i a).val < win0_2.index t a * S5000x48.size a + S5000x48.size a := by
  show i ∈ ((View.whole main_v30).slice (win0_2.rect t)).set ↔ _
  rw [View.set_slice_whole, Rect.mem_set_unit]
  exact Iff.rfl

/-- Every index of the result array lies in the block of the point numbered by its row divided by 5000. -/
theorem covered (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 20 := N_0
  let t : Fin cfg0.N := ⟨(i 0).val / 5000, by rw [hN]; omega⟩
  refine ⟨t, flush0_2 t, ?_⟩
  rw [mem_block]
  obtain ⟨-, -, -, -, e4, e5⟩ := block_index t
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 48 ≤ (i 1).val ∧ (i 1).val < win0_2.index t (1 : Fin 2) * 48 + 48; omega

/-- After the region the result array holds the product, everywhere. -/
theorem result (c : Dev nD) : (dat0 V c).arrAt 2 cfg0.N = prod16 (arrX V c) (arrW V c) :=
  (dat0 V c).arrAt_eq_of_cover 2 (prod16 (arrX V c) (arrW V c)) (fun t _ => written V c t) covered

end Cert.Bridge.First

end
-- ==== Proof.Region1.lean ====
/-
  The second kernel: what its result array holds when all twenty grid points have run.

  Point t loads rows t·5000 … of the spread matrix a, the one-row bias b and the whole of w. Entry (p, q) of what it
  writes back is the sum over k < 48 of max(a(t·5000 + p, k) + b(0, k), 0) · w(k, q): the restriction to the point's
  rows of ONE function `layer48 a b w` of the three arrays. The twenty blocks of rows tile the result array, so it ends
  holding `layer48 a b w` everywhere. Stated at the contents `V` the region is entered with, whatever they are.
-/
import proofs.«177915_j1675037246076_1_alg».proof.Proof.Gen.KernelIdeal.Frame
import proofs.«177915_j1675037246076_1_alg».proof.Proof.Payload

set_option maxRecDepth 16384

noncomputable section

open scoped BigOperators

namespace Cert.Bridge.Second

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The three arrays the kernel reads, as the region finds them. -/
abbrev arrA (c : Dev nD) : FVec Ideal S100000x48 .f32 := V c main_v43
abbrev arrB (c : Dev nD) : FVec Ideal S1x48 .f32 := V c main_v44
abbrev arrW (c : Dev nD) : FVec Ideal S48x32 .f32 := V c main_arg4

theorem hz : (![0, 0] : Fin 2 → Nat) = fun _ => 0 := funext fun a => by fin_cases a <;> rfl

/-- Bias row added to every row, clipped below at zero, times the weights: entry by entry. -/
def layer48 (a : S100000x48.Idx → EReal) (b : S1x48.Idx → EReal) (w : S48x32.Idx → EReal) : S100000x32.Idx → EReal :=
  fun i => ∑ k : Fin 48, max (a (ix2 (i 0) k) + b (ix2 0 k)) 0 * w (ix2 k (i 1))

/-- The windows' block indices at point t: the row-blocked windows are at block t, the others at block 0. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 := by
  have h := t.isLt
  have hN : cfg1.N = 20 := N_1
  omega

/-- Row p of point t's block is row t·5000 + p of the array. -/
def row (t : Fin cfg1.N) (p : Fin 5000) : Fin 100000 :=
  ⟨t.val * 5000 + p.val, by have := point_lt t; have := p.isLt; omega⟩

theorem emb_a (t : Fin cfg1.N) (p : Fin 5000) (k : Fin 48) :
    ((cfg1.win 0).blk t).view.emb (ix2 p k) = ix2 (row t p) k := by
  obtain ⟨e0, e1, -, -, -, -, -, -⟩ := block_index t
  funext a
  apply Fin.ext
  match a with
  | ⟨0, _⟩ => show win1_0.index t (0 : Fin 2) * 5000 + 1 * p.val = t.val * 5000 + p.val; omega
  | ⟨1, _⟩ => show win1_0.index t (1 : Fin 2) * 48 + 1 * k.val = k.val; omega

theorem emb_b (t : Fin cfg1.N) (k : Fin 48) :
    ((cfg1.win 1).blk t).view.emb (ix2 (0 : Fin 1) k) = ix2 (0 : Fin 1) k := by
  obtain ⟨-, -, e2, e3, -, -, -, -⟩ := block_index t
  funext a
  apply Fin.ext
  match a with
  | ⟨0, _⟩ => show win1_1.index t (0 : Fin 2) * 1 + 1 * 0 = 0; omega
  | ⟨1, _⟩ => show win1_1.index t (1 : Fin 2) * 48 + 1 * k.val = k.val; omega

theorem emb_w (t : Fin cfg1.N) (k : Fin 48) (q : Fin 32) :
    ((cfg1.win 2).blk t).view.emb (ix2 k q) = ix2 k q := by
  obtain ⟨-, -, -, -, e4, e5, -, -⟩ := block_index t
  funext a
  apply Fin.ext
  match a with
  | ⟨0, _⟩ => show win1_2.index t (0 : Fin 2) * 48 + 1 * k.val = k.val; omega
  | ⟨1, _⟩ => show win1_2.index t (1 : Fin 2) * 32 + 1 * q.val = q.val; omega

theorem emb_out (t : Fin cfg1.N) (p : Fin 5000) (q : Fin 32) :
    ((cfg1.win 3).blk t).view.emb (ix2 p q) = ix2 (row t p) q := by
  obtain ⟨-, -, -, -, -, -, e6, e7⟩ := block_index t
  funext a
  apply Fin.ext
  match a with
  | ⟨0, _⟩ => show win1_3.index t (0 : Fin 2) * 5000 + 1 * p.val = t.val * 5000 + p.val; omega
  | ⟨1, _⟩ => show win1_3.index t (1 : Fin 2) * 32 + 1 * q.val = q.val; omega

/-- What point t writes back is its block of rows of `layer48`. -/
theorem written (c : Dev nD) (t : Fin cfg1.N) :
    (dat1 V c).flushed 3 t
      = ((cfg1.win 3).blk t).view.read (Elt Ideal) (layer48 (arrA V c) (arrB V c) (arrW V c)) := by
  show (cfg1.win 3).cut (grid1.coords t) ((dat1 V c).after 3 t) = _
  rw [after1_3]
  unfold out1_3
  rw [View.canon_unit_zero hz]
  simp only [View.ld_unit_zero (S := S5000x48) hz, View.ld_unit_zero (S := S1x48) hz, View.ld_unit_zero (S := S48x32) hz]
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (ix2 p q) = _
  rw [View.read_apply, emb_out t p q]
  show _ = ∑ k : Fin 48, max (arrA V c (ix2 (row t p) k) + arrB V c (ix2 0 k)) 0 * arrW V c (ix2 k q)
  refine (pay1_at (iblk1 V c 0 t) (iblk1 V c 1 t) (iblk1 V c 2 t) p q).trans ?_
  refine Finset.sum_congr rfl fun k _ => ?_
  show max (arrA V c (((cfg1.win 0).blk t).view.emb (ix2 p k)) + arrB V c (((cfg1.win 1).blk t).view.emb (ix2 (0 : Fin 1) k))) 0
      * arrW V c (((cfg1.win 2).blk t).view.emb (ix2 k q)) = _
  rw [emb_a t p k, emb_b t k, emb_w t k q]

/-- An index of the result array lies in point t's block iff its coordinates are in the block's ranges. -/
theorem mem_block (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v45).slice (win1_3.rect t)).set ↔ _
  rw [View.set_slice_whole, Rect.mem_set_unit]
  exact Iff.rfl

/-- Every index of the result array lies in the block of the point numbered by its row divided by 5000. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  refine ⟨t, flush1_3 t, ?_⟩
  rw [mem_block]
  obtain ⟨-, -, -, -, -, -, e6, e7⟩ := block_index t
  have ht : t.val = (i 0).val / 5000 := rfl
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After the region the result array holds `layer48` of the three arrays, everywhere. -/
theorem result (c : Dev nD) : (dat1 V c).arrAt 3 cfg1.N = layer48 (arrA V c) (arrB V c) (arrW V c) :=
  (dat1 V c).arrAt_eq_of_cover 3 (layer48 (arrA V c) (arrB V c) (arrW V c)) (fun t _ => written V c t) covered

end Cert.Bridge.Second

end
-- ==== Proof.Region2.lean ====
/-
  The third kernel: what its result array holds when all twenty grid points have run.

  Point t loads rows t·5000 … of the spread matrix a, the one-row bias b, the whole of w and the one-row bias b'.
  Entry (p, q) of what it writes back is the sum over k < 32 of max(a(t·5000 + p, k) + b(0, k), 0) · w(k, q), plus
  b'(0, q): the restriction to the point's rows of ONE function `layer32 a b w b'` of the four arrays. The twenty blocks
  of rows tile the result array, so it ends holding `layer32 a b w b'` everywhere. Stated at the contents `V` the region
  is entered with, whatever they are.
-/
import proofs.«177915_j1675037246076_1_alg».proof.Proof.Gen.KernelIdeal.Frame
import proofs.«177915_j1675037246076_1_alg».proof.Proof.Payload

set_option maxRecDepth 16384

noncomputable section

open scoped BigOperators

namespace Cert.Bridge.Third

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The four arrays the kernel reads, as the region finds them. -/
abbrev arrA (c : Dev nD) : FVec Ideal S100000x32 .f32 := V c main_v58
abbrev arrB (c : Dev nD) : FVec Ideal S1x32 .f32 := V c main_v59
abbrev arrW (c : Dev nD) : FVec Ideal S32x16 .f32 := V c main_arg6
abbrev arrB' (c : Dev nD) : FVec Ideal S1x16 .f32 := V c main_v60

theorem hz : (![0, 0] : Fin 2 → Nat) = fun _ => 0 := funext fun a => by fin_cases a <;> rfl

/-- Bias row added to every row, clipped below at zero, times the weights, plus the second bias row: entry by entry. -/
def layer32 (a : S100000x32.Idx → EReal) (b : S1x32.Idx → EReal) (w : S32x16.Idx → EReal) (b' : S1x16.Idx → EReal) :
    S100000x16.Idx → EReal :=
  fun i => (∑ k : Fin 32, max (a (ix2 (i 0) k) + b (ix2 0 k)) 0 * w (ix2 k (i 1))) + b' (ix2 0 (i 1))

/-- The windows' block indices at point t: the row-blocked windows are at block t, the others at block 0. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem point_lt (t : Fin cfg2.N) : t.val < 20 := by
  have h := t.isLt
  have hN : cfg2.N = 20 := N_2
  omega

/-- Row p of point t's block is row t·5000 + p of the array. -/
def row (t : Fin cfg2.N) (p : Fin 5000) : Fin 100000 :=
  ⟨t.val * 5000 + p.val, by have := point_lt t; have := p.isLt; omega⟩

theorem emb_a (t : Fin cfg2.N) (p : Fin 5000) (k : Fin 32) :
    ((cfg2.win 0).blk t).view.emb (ix2 p k) = ix2 (row t p) k := by
  obtain ⟨e0, e1, -, -, -, -, -, -, -, -⟩ := block_index t
  funext a
  apply Fin.ext
  match a with
  | ⟨0, _⟩ => show win2_0.index t (0 : Fin 2) * 5000 + 1 * p.val = t.val * 5000 + p.val; omega
  | ⟨1, _⟩ => show win2_0.index t (1 : Fin 2) * 32 + 1 * k.val = k.val; omega

theorem emb_b (t : Fin cfg2.N) (k : Fin 32) :
    ((cfg2.win 1).blk t).view.emb (ix2 (0 : Fin 1) k) = ix2 (0 : Fin 1) k := by
  obtain ⟨-, -, e2, e3, -, -, -, -, -, -⟩ := block_index t
  funext a
  apply Fin.ext
  match a with
  | ⟨0, _⟩ => show win2_1.index t (0 : Fin 2) * 1 + 1 * 0 = 0; omega
  | ⟨1, _⟩ => show win2_1.index t (1 : Fin 2) * 32 + 1 * k.val = k.val; omega

theorem emb_w (t : Fin cfg2.N) (k : Fin 32) (q : Fin 16) :
    ((cfg2.win 2).blk t).view.emb (ix2 k q) = ix2 k q := by
  obtain ⟨-, -, -, -, e4, e5, -, -, -, -⟩ := block_index t
  funext a
  apply Fin.ext
  match a with
  | ⟨0, _⟩ => show win2_2.index t (0 : Fin 2) * 32 + 1 * k.val = k.val; omega
  | ⟨1, _⟩ => show win2_2.index t (1 : Fin 2) * 16 + 1 * q.val = q.val; omega

theorem emb_b' (t : Fin cfg2.N) (q : Fin 16) :
    ((cfg2.win 3).blk t).view.emb (ix2 (0 : Fin 1) q) = ix2 (0 : Fin 1) q := by
  obtain ⟨-, -, -, -, -, -, e6, e7, -, -⟩ := block_index t
  funext a
  apply Fin.ext
  match a with
  | ⟨0, _⟩ => show win2_3.index t (0 : Fin 2) * 1 + 1 * 0 = 0; omega
  | ⟨1, _⟩ => show win2_3.index t (1 : Fin 2) * 16 + 1 * q.val = q.val; omega

theorem emb_out (t : Fin cfg2.N) (p : Fin 5000) (q : Fin 16) :
    ((cfg2.win 4).blk t).view.emb (ix2 p q) = ix2 (row t p) q := by
  obtain ⟨-, -, -, -, -, -, -, -, e8, e9⟩ := block_index t
  funext a
  apply Fin.ext
  match a with
  | ⟨0, _⟩ => show win2_4.index t (0 : Fin 2) * 5000 + 1 * p.val = t.val * 5000 + p.val; omega
  | ⟨1, _⟩ => show win2_4.index t (1 : Fin 2) * 16 + 1 * q.val = q.val; omega

/-- What point t writes back is its block of rows of `layer32`. -/
theorem written (c : Dev nD) (t : Fin cfg2.N) :
    (dat2 V c).flushed 4 t
      = ((cfg2.win 4).blk t).view.read (Elt Ideal) (layer32 (arrA V c) (arrB V c) (arrW V c) (arrB' V c)) := by
  show (cfg2.win 4).cut (grid2.coords t) ((dat2 V c).after 4 t) = _
  rw [after2_4]
  unfold out2_4
  rw [View.canon_unit_zero hz]
  simp only [View.ld_unit_zero (S := S5000x32) hz, View.ld_unit_zero (S := S1x32) hz, View.ld_unit_zero (S := S32x16) hz,
    View.ld_unit_zero (S := S1x16) hz]
  funext j
  obtain ⟨p, q, rfl⟩ : ∃ (p : Fin 5000) (q : Fin 16), j = ix2 p q := ⟨j 0, j 1, eq_ix2 j⟩
  show k2_pay1 (F := Ideal) (iblk2 V c 0 t) (iblk2 V c 1 t) (iblk2 V c 2 t) (iblk2 V c 3 t) (ix2 p q) = _
  rw [View.read_apply, emb_out t p q]
  show _ = (∑ k : Fin 32, max (arrA V c (ix2 (row t p) k) + arrB V c (ix2 0 k)) 0 * arrW V c (ix2 k q)) + arrB' V c (ix2 0 q)
  refine (pay2_at (iblk2 V c 0 t) (iblk2 V c 1 t) (iblk2 V c 2 t) (iblk2 V c 3 t) p q).trans ?_
  have hb' : iblk2 V c 3 t (ix2 (0 : Fin 1) q) = arrB' V c (ix2 0 q) := by
    show arrB' V c (((cfg2.win 3).blk t).view.emb (ix2 (0 : Fin 1) q)) = _
    rw [emb_b' t q]
  rw [hb']
  refine congrArg (· + arrB' V c (ix2 0 q)) ?_
  refine Finset.sum_congr rfl fun k _ => ?_
  show max (arrA V c (((cfg2.win 0).blk t).view.emb (ix2 p k)) + arrB V c (((cfg2.win 1).blk t).view.emb (ix2 (0 : Fin 1) k))) 0
      * arrW V c (((cfg2.win 2).blk t).view.emb (ix2 k q)) = _
  rw [emb_a t p k, emb_b t k, emb_w t k q]

/-- An index of the result array lies in point t's block iff its coordinates are in the block's ranges. -/
theorem mem_block (t : Fin cfg2.N) (i : S100000x16.Idx) :
    i ∈ ((cfg2.win 4).blk t).view.set ↔ ∀ a : Fin 2, win2_4.index t a * S5000x16.size a ≤ (i a).val
      ∧ (i a).val < win2_4.index t a * S5000x16.size a + S5000x16.size a := by
  show i ∈ ((View.whole main_v61).slice (win2_4.rect t)).set ↔ _
  rw [View.set_slice_whole, Rect.mem_set_unit]
  exact Iff.rfl

/-- Every index of the result array lies in the block of the point numbered by its row divided by 5000. -/
theorem covered (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  refine ⟨t, flush2_4 t, ?_⟩
  rw [mem_block]
  obtain ⟨-, -, -, -, -, -, -, -, e8, e9⟩ := block_index t
  have ht : t.val = (i 0).val / 5000 := rfl
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 16 ≤ (i 1).val ∧ (i 1).val < win2_4.index t (1 : Fin 2) * 16 + 16; omega

/-- After the region the result array holds `layer32` of the four arrays, everywhere. -/
theorem result (c : Dev nD) :
    (dat2 V c).arrAt 4 cfg2.N = layer32 (arrA V c) (arrB V c) (arrW V c) (arrB' V c) :=
  (dat2 V c).arrAt_eq_of_cover 4 (layer32 (arrA V c) (arrB V c) (arrW V c) (arrB' V c)) (fun t _ => written V c t) covered

end Cert.Bridge.Third

end
-- ==== Proof.RefLayers.lean ====
/-
  The reference, cut at the places where the kernel program hands an array from a kernel to the host or back.

  The reference computes, in this order: a product x·W1; a SPREAD of its rows (each edge gathers its source node's
  row, scales it by the edge's weight, and the scaled rows are summed into their destination nodes' rows); the bias b1
  added to every row and the result clipped below at zero; the product with W2; the same spread, 32 columns wide; b2
  added and the clip; the product with Wfc; the bias bfc added to every row. The edge weights, sources and
  destinations are functions of the edge list only, and the reference computes them twice, to the same values.

  `spread48` and `spread32` are the two spreads as functions of the matrix whose rows are gathered, `dense2` and
  `dense3` the two later dense layers as functions of the matrix they start from; `reference_cut` says the
  reference's result is their composition, and the `_at` lemmas read each dense layer at an entry over the extended
  reals: entry (p, q) is a sum over the contracted axis of row p's clipped entries times a column of the weights.
-/
import proofs.«177915_j1675037246076_1_alg».proof.Proof.RefRead
import proofs.«177915_j1675037246076_1_alg».proof.Proof.RowProduct

noncomputable section

open scoped BigOperators

namespace Cert.Bridge

open Idealize.ShloMosaic Idealize.ShloMosaic.ValueIdx Cert.ReferenceIdeal Cert.ReferenceIdeal.Read

section Stages

variable {F : FTy → Type} [FloatOps F]

/-- Rows gathered by source node, scaled by the edge weights, summed into destination nodes: 48 columns. -/
def spread48 (h : (⟨S100000x48, .f32⟩ : BufTy).Contents (Elt F)) (x1 : (⟨S2x3200000, .i32⟩ : BufTy).Contents (Elt F)) :
    (⟨S100000x48, .f32⟩ : BufTy).Contents (Elt F) :=
  Host.scatterAdd scatter_S100000x48_S3300000x1_S3300000x48_1_0_0_1 (val_main_v41 (F := F)) (val_main_v42 (F := F) x1)
    (mulf (Host.gather gather_S100000x48_S3300000x1_S3300000x48_1_0_n_n_0_1_148 h (val_main_v36 (F := F) x1))
      (val_main_v39 (F := F) x1))

/-- The same, 32 columns wide, with the reference's second computation of sources, destinations and weights. -/
def spread32 (h : (⟨S100000x32, .f32⟩ : BufTy).Contents (Elt F)) (x1 : (⟨S2x3200000, .i32⟩ : BufTy).Contents (Elt F)) :
    (⟨S100000x32, .f32⟩ : BufTy).Contents (Elt F) :=
  Host.scatterAdd scatter_S100000x32_S3300000x1_S3300000x32_1_0_0_1 (val_main_v85 (F := F)) (val_main_v86 (F := F) x1)
    (mulf (Host.gather gather_S100000x32_S3300000x1_S3300000x32_1_0_n_n_0_1_132 h (val_main_v80 (F := F) x1))
      (val_main_v83 (F := F) x1))

/-- The second dense layer: bias, clip at zero, product with the weights. -/
def dense2 (a : (⟨S100000x48, .f32⟩ : BufTy).Contents (Elt F)) (x3 : (⟨S48, .f32⟩ : BufTy).Contents (Elt F))
    (x4 : (⟨S48x32, .f32⟩ : BufTy).Contents (Elt F)) : (⟨S100000x32, .f32⟩ : BufTy).Contents (Elt F) :=
  Host.dotGeneral dot_S100000x48_S48x32_S100000x32_1_0_0_1_n_n none
    (maximumf (addf a (val_main_v45 (F := F) x3)) (val_main_call1_v0 (F := F))) x4

/-- The third dense layer before its last bias: bias, clip at zero, product with the weights. -/
def dense3core (a : (⟨S100000x32, .f32⟩ : BufTy).Contents (Elt F)) (x5 : (⟨S32, .f32⟩ : BufTy).Contents (Elt F))
    (x6 : (⟨S32x16, .f32⟩ : BufTy).Contents (Elt F)) : (⟨S100000x16, .f32⟩ : BufTy).Contents (Elt F) :=
  Host.dotGeneral dot_S100000x32_S32x16_S100000x16_1_0_0_1_n_n none
    (maximumf (addf a (val_main_v89 (F := F) x5)) (val_main_call3_v0 (F := F))) x6

/-- The third dense layer: that, and the last bias added to every row. -/
def dense3 (a : (⟨S100000x32, .f32⟩ : BufTy).Contents (Elt F)) (x5 : (⟨S32, .f32⟩ : BufTy).Contents (Elt F))
    (x6 : (⟨S32x16, .f32⟩ : BufTy).Contents (Elt F)) (x7 : (⟨S16, .f32⟩ : BufTy).Contents (Elt F)) :
    (⟨S100000x16, .f32⟩ : BufTy).Contents (Elt F) :=
  addf (dense3core a x5 x6) (val_main_v94 (F := F) x7)

/-- The reference's result is the composition of the three dense layers and the two spreads. -/
theorem reference_cut (x0 : (⟨S100000x16, .f32⟩ : BufTy).Contents (Elt F)) (x1 : (⟨S2x3200000, .i32⟩ : BufTy).Contents (Elt F))
    (x2 : (⟨S16x48, .f32⟩ : BufTy).Contents (Elt F)) (x3 : (⟨S48, .f32⟩ : BufTy).Contents (Elt F))
    (x4 : (⟨S48x32, .f32⟩ : BufTy).Contents (Elt F)) (x5 : (⟨S32, .f32⟩ : BufTy).Contents (Elt F))
    (x6 : (⟨S32x16, .f32⟩ : BufTy).Contents (Elt F)) (x7 : (⟨S16, .f32⟩ : BufTy).Contents (Elt F)) :
    val_main_v95 (F := F) x0 x1 x2 x3 x4 x5 x6 x7
      = dense3 (spread32 (dense2 (spread48 (val_main_v4 (F := F) x0 x2) x1) x3 x4) x1) x5 x6 x7 := rfl

/-- A bias vector broadcast to every row, at entry (p, i): 48 columns. -/
theorem bias48_at (x3 : (⟨S48, .f32⟩ : BufTy).Contents (Elt F)) (p : Fin 100000) (i : Fin 48) :
    val_main_v45 (F := F) x3 (ix2 p i) = x3 (ix1 i) := by
  rw [val_main_v45_apply, val_main_v44_apply]
  exact congrArg x3 (funext fun a => match a with | ⟨0, _⟩ => rfl)

/-- The same: 32 columns. -/
theorem bias32_at (x5 : (⟨S32, .f32⟩ : BufTy).Contents (Elt F)) (p : Fin 100000) (i : Fin 32) :
    val_main_v89 (F := F) x5 (ix2 p i) = x5 (ix1 i) := by
  rw [val_main_v89_apply, val_main_v88_apply]
  exact congrArg x5 (funext fun a => match a with | ⟨0, _⟩ => rfl)

/-- The same: 16 columns. -/
theorem bias16_at (x7 : (⟨S16, .f32⟩ : BufTy).Contents (Elt F)) (p : Fin 100000) (q : Fin 16) :
    val_main_v94 (F := F) x7 (ix2 p q) = x7 (ix1 q) := by
  rw [val_main_v94_apply, val_main_v93_apply]
  exact congrArg x7 (funext fun a => match a with | ⟨0, _⟩ => rfl)

end Stages

/-- The clip's lower bound is the real zero, everywhere: 48 columns. -/
theorem zero48_at (i : S100000x48.Idx) : val_main_call1_v0 (F := Ideal) i = 0 := by
  rw [val_main_call1_v0_apply, val_main_call1_cst_apply]
  exact Ideal.ofBits_zero_f32

/-- The same: 32 columns. -/
theorem zero32_at (i : S100000x32.Idx) : val_main_call3_v0 (F := Ideal) i = 0 := by
  rw [val_main_call3_v0_apply, val_main_call3_cst_apply]
  exact Ideal.ofBits_zero_f32

/-- The first dense layer at entry (p, q). -/
theorem dense1_at (x0 : (⟨S100000x16, .f32⟩ : BufTy).Contents (Elt Ideal)) (x2 : (⟨S16x48, .f32⟩ : BufTy).Contents (Elt Ideal))
    (p : Fin 100000) (q : Fin 48) :
    val_main_v4 (F := Ideal) x0 x2 (ix2 p q) = ∑ i : Fin 16, x0 (ix2 p i) * x2 (ix2 i q) := by
  unfold val_main_v4
  simp only [Host.dotGeneral]
  exact Cert.RowProduct.dotGeneral_at dot_S100000x16_S16x48_S100000x48_1_0_0_1_n_n none _ rfl rfl rfl rfl rfl rfl x0 x2 p q

/-- The second dense layer at entry (p, q). -/
theorem dense2_at (a : (⟨S100000x48, .f32⟩ : BufTy).Contents (Elt Ideal)) (x3 : (⟨S48, .f32⟩ : BufTy).Contents (Elt Ideal))
    (x4 : (⟨S48x32, .f32⟩ : BufTy).Contents (Elt Ideal)) (p : Fin 100000) (q : Fin 32) :
    dense2 (F := Ideal) a x3 x4 (ix2 p q) = ∑ i : Fin 48, max (a (ix2 p i) + x3 (ix1 i)) 0 * x4 (ix2 i q) := by
  unfold dense2
  simp only [Host.dotGeneral]
  refine (Cert.RowProduct.dotGeneral_at dot_S100000x48_S48x32_S100000x32_1_0_0_1_n_n none _ rfl rfl rfl rfl rfl rfl _ x4 p q).trans ?_
  refine Finset.sum_congr rfl fun i _ => ?_
  refine congrArg (· * x4 (ix2 i q)) ?_
  show max (a (ix2 p i) + val_main_v45 (F := Ideal) x3 (ix2 p i)) (val_main_call1_v0 (F := Ideal) (ix2 p i)) = _
  rw [bias48_at, zero48_at]

/-- The third dense layer before its last bias, at entry (p, q). -/
theorem dense3core_at (a : (⟨S100000x32, .f32⟩ : BufTy).Contents (Elt Ideal)) (x5 : (⟨S32, .f32⟩ : BufTy).Contents (Elt Ideal))
    (x6 : (⟨S32x16, .f32⟩ : BufTy).Contents (Elt Ideal)) (p : Fin 100000) (q : Fin 16) :
    dense3core (F := Ideal) a x5 x6 (ix2 p q) = ∑ i : Fin 32, max (a (ix2 p i) + x5 (ix1 i)) 0 * x6 (ix2 i q) := by
  unfold dense3core
  simp only [Host.dotGeneral]
  refine (Cert.RowProduct.dotGeneral_at dot_S100000x32_S32x16_S100000x16_1_0_0_1_n_n none _ rfl rfl rfl rfl rfl rfl _ x6 p q).trans ?_
  refine Finset.sum_congr rfl fun i _ => ?_
  refine congrArg (· * x6 (ix2 i q)) ?_
  show max (a (ix2 p i) + val_main_v89 (F := Ideal) x5 (ix2 p i)) (val_main_call3_v0 (F := Ideal) (ix2 p i)) = _
  rw [bias32_at, zero32_at]

/-- The third dense layer at entry (p, q). -/
theorem dense3_at (a : (⟨S100000x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (p : Fin 100000) (q : Fin 16) :
    dense3 (F := Ideal) a x5 x6 x7 (ix2 p q)
      = (∑ i : Fin 32, max (a (ix2 p i) + x5 (ix1 i)) 0 * x6 (ix2 i q)) + x7 (ix1 q) := by
  show dense3core (F := Ideal) a x5 x6 (ix2 p q) + val_main_v94 (F := Ideal) x7 (ix2 p q) = _
  rw [dense3core_at, bias16_at]

end Cert.Bridge

end
-- ==== Proof.HostChain.lean ====
/-
  What the kernel program's buffers hold at the boundaries between its host stretches and its three kernels, in the
  reference's own terms.

  The kernel program computes the edge sources, destinations and weights once, before its first kernel, by the same
  host operations the reference uses; between the kernels it spreads the rows of the matrix the previous kernel
  left, again by the reference's operations; and it reshapes each bias vector to a one-row matrix for the kernel that
  adds it. No host operation and no kernel writes an argument, and nothing after the first stretches writes the
  sources, destinations or weights. So at every boundary each buffer a kernel or a later stretch reads is an explicit
  function of the arguments and of what the previous kernel left:
  * the sources, destinations and weights are the reference's functions of the edge list, at every boundary;
  * before the second kernel, its first operand is the 48-column spread of the first kernel's result;
  * before the third kernel, its first operand is the 32-column spread of the second kernel's result (the reference
    computes sources, destinations and weights a second time there, to the same values);
  * the bias operands are the bias vectors with a leading unit axis, the weight operands the arguments themselves.
-/
import proofs.«177915_j1675037246076_1_alg».proof.Proof.Gen.KernelIdeal.Frame
import proofs.«177915_j1675037246076_1_alg».proof.Proof.RefLayers

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that no operation of a stretch writes holds after the stretch what it held before it. -/
macro "through_stretch" : tactic => `(tactic| (
  refine (StableHlo.after_of_forall_not_mem _ _ (List.forall_iff_forall_mem.mp (by
    simp only [hostOps0, hostOps0_1, hostOps0_2, hostOps1, hostOps2, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans ?_))

/-! ## Before the first kernel -/

/-- The edge sources, self-loops appended. -/
theorem W3_src (c : Dev nD) : W3 m ρ c (Proc.devRef .tc main_v5)
    = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v5) = _
  after_results
  rfl

/-- The edge destinations, self-loops appended. -/
theorem W3_dst (c : Dev nD) : W3 m ρ c (Proc.devRef .tc main_v6)
    = Cert.ReferenceIdeal.Read.val_main_v7 (F := F) (m ((c : Thread nD τ).loc main_arg1)) := by
  show StableHlo.after hostOps0_2 (StableHlo.after hostOps0_1 (StableHlo.after hostOps0 (W0 m ρ c))) (Proc.devRef .tc main_v6) = _
  after_results
  rfl

/-- The edge weights: the product of the two end nodes' inverse square-root degrees. -/
theorem W3_wgt (c : Dev nD) : W3 m ρ c (Proc.devRef .tc main_v29)
    = Cert.ReferenceIdeal.Read.val_main_v30 (F := F) (m ((c : Thread nD τ).loc main_arg1)) := by
  show StableHlo.after hostOps0_2 (StableHlo.after hostOps0_1 (StableHlo.after hostOps0 (W0 m ρ c))) (Proc.devRef .tc main_v29) = _
  after_results_simp
  rfl

/-- No operation before the first kernel writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  through_stretch; through_stretch; through_stretch; rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  through_stretch; through_stretch; through_stretch; rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  through_stretch; through_stretch; through_stretch; rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  through_stretch; through_stretch; through_stretch; rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  through_stretch; through_stretch; through_stretch; rfl
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  through_stretch; through_stretch; through_stretch; rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  through_stretch; through_stretch; through_stretch; rfl

/-! ## After the first kernel: it writes its result array only -/

theorem W4_src (c : Dev nD) : W4 m ρ c (Proc.devRef .tc main_v5)
    = Cert.ReferenceIdeal.Read.val_main_v6 (F := F) (m ((c : Thread nD τ).loc main_arg1)) :=
  (W4_of_ne m ρ c main_v5 (by decide)).trans (W3_src m ρ c)
theorem W4_dst (c : Dev nD) : W4 m ρ c (Proc.devRef .tc main_v6)
    = Cert.ReferenceIdeal.Read.val_main_v7 (F := F) (m ((c : Thread nD τ).loc main_arg1)) :=
  (W4_of_ne m ρ c main_v6 (by decide)).trans (W3_dst m ρ c)
theorem W4_wgt (c : Dev nD) : W4 m ρ c (Proc.devRef .tc main_v29)
    = Cert.ReferenceIdeal.Read.val_main_v30 (F := F) (m ((c : Thread nD τ).loc main_arg1)) :=
  (W4_of_ne m ρ c main_v29 (by decide)).trans (W3_wgt m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## Before the second kernel -/

/-- Its first operand: the 48-column spread of what the first kernel left. -/
theorem W5_spread (c : Dev nD) : W5 m ρ c (Proc.devRef .tc main_v43)
    = spread48 (F := F) (W4 m ρ c (Proc.devRef .tc main_v30)) (m ((c : Thread nD τ).loc main_arg1)) := by
  show StableHlo.after hostOps1 (W4 m ρ c) (Proc.devRef .tc main_v43) = _
  after_results_simp
  rw [W4_src m ρ c, W4_dst m ρ c, W4_wgt m ρ c]
  rfl

/-- Its second operand: the first bias vector with a leading unit axis. -/
theorem W5_bias (c : Dev nD) : W5 m ρ c (Proc.devRef .tc main_v44)
    = shapeCast S1x48 (m ((c : Thread nD τ).loc main_arg3)) shapeCasts_S48_S1x48 := by
  show StableHlo.after hostOps1 (W4 m ρ c) (Proc.devRef .tc main_v44) = _
  after_results
  rw [W4_arg3 m ρ c]
  rfl

/-- Its third operand: the second weight matrix. -/
theorem W5_arg4 (c : Dev nD) : W5 m ρ c (Proc.devRef .tc main_arg4) = m ((c : Thread nD τ).loc main_arg4) := by
  show StableHlo.after hostOps1 (W4 m ρ c) (Proc.devRef .tc main_arg4) = _
  through_stretch; exact W4_arg4 m ρ c

theorem W5_src (c : Dev nD) : W5 m ρ c (Proc.devRef .tc main_v5)
    = Cert.ReferenceIdeal.Read.val_main_v6 (F := F) (m ((c : Thread nD τ).loc main_arg1)) := by
  show StableHlo.after hostOps1 (W4 m ρ c) (Proc.devRef .tc main_v5) = _
  through_stretch; exact W4_src m ρ c
theorem W5_dst (c : Dev nD) : W5 m ρ c (Proc.devRef .tc main_v6)
    = Cert.ReferenceIdeal.Read.val_main_v7 (F := F) (m ((c : Thread nD τ).loc main_arg1)) := by
  show StableHlo.after hostOps1 (W4 m ρ c) (Proc.devRef .tc main_v6) = _
  through_stretch; exact W4_dst m ρ c
theorem W5_wgt (c : Dev nD) : W5 m ρ c (Proc.devRef .tc main_v29)
    = Cert.ReferenceIdeal.Read.val_main_v30 (F := F) (m ((c : Thread nD τ).loc main_arg1)) := by
  show StableHlo.after hostOps1 (W4 m ρ c) (Proc.devRef .tc main_v29) = _
  through_stretch; exact W4_wgt m ρ c
theorem W5_arg5 (c : Dev nD) : W5 m ρ c (Proc.devRef .tc main_arg5) = m ((c : Thread nD τ).loc main_arg5) := by
  show StableHlo.after hostOps1 (W4 m ρ c) (Proc.devRef .tc main_arg5) = _
  through_stretch; exact W4_arg5 m ρ c
theorem W5_arg6 (c : Dev nD) : W5 m ρ c (Proc.devRef .tc main_arg6) = m ((c : Thread nD τ).loc main_arg6) := by
  show StableHlo.after hostOps1 (W4 m ρ c) (Proc.devRef .tc main_arg6) = _
  through_stretch; exact W4_arg6 m ρ c
theorem W5_arg7 (c : Dev nD) : W5 m ρ c (Proc.devRef .tc main_arg7) = m ((c : Thread nD τ).loc main_arg7) := by
  show StableHlo.after hostOps1 (W4 m ρ c) (Proc.devRef .tc main_arg7) = _
  through_stretch; exact W4_arg7 m ρ c

/-! ## After the second kernel: it writes its result array only -/

theorem W6_src (c : Dev nD) : W6 m ρ c (Proc.devRef .tc main_v5)
    = Cert.ReferenceIdeal.Read.val_main_v6 (F := F) (m ((c : Thread nD τ).loc main_arg1)) :=
  (W6_of_ne m ρ c main_v5 (by decide)).trans (W5_src m ρ c)
theorem W6_dst (c : Dev nD) : W6 m ρ c (Proc.devRef .tc main_v6)
    = Cert.ReferenceIdeal.Read.val_main_v7 (F := F) (m ((c : Thread nD τ).loc main_arg1)) :=
  (W6_of_ne m ρ c main_v6 (by decide)).trans (W5_dst m ρ c)
theorem W6_wgt (c : Dev nD) : W6 m ρ c (Proc.devRef .tc main_v29)
    = Cert.ReferenceIdeal.Read.val_main_v30 (F := F) (m ((c : Thread nD τ).loc main_arg1)) :=
  (W6_of_ne m ρ c main_v29 (by decide)).trans (W5_wgt m ρ c)
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)

/-! ## Before the third kernel -/

/-- The reference's second computation of the sources, destinations and weights gives the first one's values. -/
theorem src_again (x1 : (⟨Cert.ReferenceIdeal.S2x3200000, .i32⟩ : BufTy).Contents (Elt F)) :
    Cert.ReferenceIdeal.Read.val_main_v50 (F := F) x1 = Cert.ReferenceIdeal.Read.val_main_v6 (F := F) x1 := rfl
theorem dst_again (x1 : (⟨Cert.ReferenceIdeal.S2x3200000, .i32⟩ : BufTy).Contents (Elt F)) :
    Cert.ReferenceIdeal.Read.val_main_v51 (F := F) x1 = Cert.ReferenceIdeal.Read.val_main_v7 (F := F) x1 := rfl
theorem wgt_again (x1 : (⟨Cert.ReferenceIdeal.S2x3200000, .i32⟩ : BufTy).Contents (Elt F)) :
    Cert.ReferenceIdeal.Read.val_main_v74 (F := F) x1 = Cert.ReferenceIdeal.Read.val_main_v30 (F := F) x1 := rfl

/-- Its first operand: the 32-column spread of what the second kernel left. -/
theorem W7_spread (c : Dev nD) : W7 m ρ c (Proc.devRef .tc main_v58)
    = spread32 (F := F) (W6 m ρ c (Proc.devRef .tc main_v45)) (m ((c : Thread nD τ).loc main_arg1)) := by
  show StableHlo.after hostOps2 (W6 m ρ c) (Proc.devRef .tc main_v58) = _
  after_results_simp
  rw [W6_src m ρ c, W6_dst m ρ c, W6_wgt m ρ c, ← src_again, ← dst_again, ← wgt_again]
  rfl

/-- Its second operand: the second bias vector with a leading unit axis. -/
theorem W7_bias (c : Dev nD) : W7 m ρ c (Proc.devRef .tc main_v59)
    = shapeCast S1x32 (m ((c : Thread nD τ).loc main_arg5)) shapeCasts_S32_S1x32 := by
  show StableHlo.after hostOps2 (W6 m ρ c) (Proc.devRef .tc main_v59) = _
  after_results
  rw [W6_arg5 m ρ c]
  rfl

/-- Its third operand: the last weight matrix. -/
theorem W7_arg6 (c : Dev nD) : W7 m ρ c (Proc.devRef .tc main_arg6) = m ((c : Thread nD τ).loc main_arg6) := by
  show StableHlo.after hostOps2 (W6 m ρ c) (Proc.devRef .tc main_arg6) = _
  through_stretch; exact W6_arg6 m ρ c

/-- Its fourth operand: the last bias vector with a leading unit axis. -/
theorem W7_bias' (c : Dev nD) : W7 m ρ c (Proc.devRef .tc main_v60)
    = shapeCast S1x16 (m ((c : Thread nD τ).loc main_arg7)) shapeCasts_S16_S1x16 := by
  show StableHlo.after hostOps2 (W6 m ρ c) (Proc.devRef .tc main_v60) = _
  after_results
  rw [W6_arg7 m ρ c]
  rfl

end Cert.Bridge

end
-- ==== Proof.Bridge.lean ====
/-
  The kernel program's result is the reference's, as extended reals.

  Kernel by kernel: the first kernel leaves the reference's first product (its result array is `prod16` of x and W1,
  and the host's product is the same sum entry by entry); the host then spreads it exactly as the reference does; the
  second kernel leaves the reference's second dense layer of that spread (the kernel adds the bias from a one-row
  matrix, the reference from a vector broadcast to every row: the same entries); the host spreads again; the third
  kernel leaves the reference's third dense layer. Only the order and grouping of the work differ: nothing here needs an
  input to be finite.
-/
import proofs.«177915_j1675037246076_1_alg».proof.Proof.Region0
import proofs.«177915_j1675037246076_1_alg».proof.Proof.Region1
import proofs.«177915_j1675037246076_1_alg».proof.Proof.Region2
import proofs.«177915_j1675037246076_1_alg».proof.Proof.HostChain

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen

/-! ## The three kernels' whole-array functions are the reference's three dense layers -/

/-- A vector given a leading unit axis, read at (0, k). -/
theorem unit_row_at {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  (shapeCast_addUnit_apply ![n] x h (ix2 (0 : Fin 1) k)).trans
    (congrArg x (funext fun a => match a with | ⟨0, _⟩ => rfl))

/-- The first kernel's function is the host's product. -/
theorem prod16_eq (x0 : FVec Ideal S100000x16 .f32) (x2 : FVec Ideal S16x48 .f32) :
    First.prod16 x0 x2 = Cert.ReferenceIdeal.Read.val_main_v4 (F := Ideal) x0 x2 := by
  funext i
  obtain ⟨p, q, rfl⟩ : ∃ (p : Fin 100000) (q : Fin 48), i = ix2 p q := ⟨i 0, i 1, eq_ix2 i⟩
  exact (dense1_at x0 x2 p q).symm

/-- The second kernel's function, its bias a one-row matrix, is the reference's second dense layer. -/
theorem layer48_eq (a : FVec Ideal S100000x48 .f32) (x3 : FVec Ideal S48 .f32) (x4 : FVec Ideal S48x32 .f32)
    (h3 : S48.ShapeCasts S1x48) :
    Second.layer48 a (shapeCast S1x48 x3 h3) x4 = dense2 (F := Ideal) a x3 x4 := by
  funext i
  obtain ⟨p, q, rfl⟩ : ∃ (p : Fin 100000) (q : Fin 32), i = ix2 p q := ⟨i 0, i 1, eq_ix2 i⟩
  refine Eq.trans ?_ (dense2_at a x3 x4 p q).symm
  show (∑ k : Fin 48, max (a (ix2 p k) + shapeCast S1x48 x3 h3 (ix2 (0 : Fin 1) k)) 0 * x4 (ix2 k q)) = _
  simp only [unit_row_at]

/-- The third kernel's function, its biases one-row matrices, is the reference's third dense layer. -/
theorem layer32_eq (a : FVec Ideal S100000x32 .f32) (x5 : FVec Ideal S32 .f32) (x6 : FVec Ideal S32x16 .f32)
    (x7 : FVec Ideal S16 .f32) (h5 : S32.ShapeCasts S1x32) (h7 : S16.ShapeCasts S1x16) :
    Third.layer32 a (shapeCast S1x32 x5 h5) x6 (shapeCast S1x16 x7 h7) = dense3 (F := Ideal) a x5 x6 x7 := by
  funext i
  obtain ⟨p, q, rfl⟩ : ∃ (p : Fin 100000) (q : Fin 16), i = ix2 p q := ⟨i 0, i 1, eq_ix2 i⟩
  refine Eq.trans ?_ (dense3_at a x5 x6 x7 p q).symm
  show (∑ k : Fin 32, max (a (ix2 p k) + shapeCast S1x32 x5 h5 (ix2 (0 : Fin 1) k)) 0 * x6 (ix2 k q))
      + shapeCast S1x16 x7 h7 (ix2 (0 : Fin 1) q) = _
  simp only [unit_row_at]

/-! ## The run, boundary by boundary -/

variable (m : (ℓ : Loc nD τ sig) → Buf (Elt Ideal) ℓ) (ρ : Dev nD → PrngReg)

/-- The first kernel leaves the reference's first product. -/
theorem first_result (c : Dev nD) : W4 m ρ c (Proc.devRef .tc main_v30)
    = Cert.ReferenceIdeal.Read.val_main_v4 (F := Ideal) (m ((c : Thread nD τ).loc main_arg0)) (m ((c : Thread nD τ).loc main_arg2)) := by
  refine (W4_arr m ρ c 2).trans ?_
  refine (First.result (V3 m ρ) c).trans ?_
  have hx : First.arrX (V3 m ρ) c = m ((c : Thread nD τ).loc main_arg0) := W3_arg0 m ρ c
  have hw : First.arrW (V3 m ρ) c = m ((c : Thread nD τ).loc main_arg2) := W3_arg2 m ρ c
  rw [hx, hw]
  exact prod16_eq _ _

/-- The second kernel leaves the reference's second dense layer of the spread of the first product. -/
theorem second_result (c : Dev nD) : W6 m ρ c (Proc.devRef .tc main_v45)
    = dense2 (F := Ideal)
        (spread48 (F := Ideal)
          (Cert.ReferenceIdeal.Read.val_main_v4 (F := Ideal) (m ((c : Thread nD τ).loc main_arg0)) (m ((c : Thread nD τ).loc main_arg2)))
          (m ((c : Thread nD τ).loc main_arg1)))
        (m ((c : Thread nD τ).loc main_arg3)) (m ((c : Thread nD τ).loc main_arg4)) := by
  refine (W6_arr m ρ c 3).trans ?_
  refine (Second.result (V5 m ρ) c).trans ?_
  have ha : Second.arrA (V5 m ρ) c = spread48 (F := Ideal)
      (Cert.ReferenceIdeal.Read.val_main_v4 (F := Ideal) (m ((c : Thread nD τ).loc main_arg0)) (m ((c : Thread nD τ).loc main_arg2)))
      (m ((c : Thread nD τ).loc main_arg1)) := by
    refine (W5_spread m ρ c).trans ?_
    rw [first_result m ρ c]
  have hb : Second.arrB (V5 m ρ) c = shapeCast S1x48 (m ((c : Thread nD τ).loc main_arg3)) shapeCasts_S48_S1x48 := W5_bias m ρ c
  have hw : Second.arrW (V5 m ρ) c = m ((c : Thread nD τ).loc main_arg4) := W5_arg4 m ρ c
  rw [ha, hb, hw]
  exact layer48_eq _ _ _ _

/-- The third kernel leaves the reference's result. -/
theorem third_result (c : Dev nD) : W8 m ρ c (Proc.devRef .tc main_v61)
    = Cert.ReferenceIdeal.Read.val_main_v95 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [reference_cut]
  refine (W8_arr m ρ c 4).trans ?_
  refine (Third.result (V7 m ρ) c).trans ?_
  have ha : Third.arrA (V7 m ρ) c = spread32 (F := Ideal)
      (dense2 (F := Ideal)
        (spread48 (F := Ideal)
          (Cert.ReferenceIdeal.Read.val_main_v4 (F := Ideal) (m ((c : Thread nD τ).loc main_arg0)) (m ((c : Thread nD τ).loc main_arg2)))
          (m ((c : Thread nD τ).loc main_arg1)))
        (m ((c : Thread nD τ).loc main_arg3)) (m ((c : Thread nD τ).loc main_arg4)))
      (m ((c : Thread nD τ).loc main_arg1)) := by
    refine (W7_spread m ρ c).trans ?_
    rw [second_result m ρ c]
  have hb : Third.arrB (V7 m ρ) c = shapeCast S1x32 (m ((c : Thread nD τ).loc main_arg5)) shapeCasts_S32_S1x32 := W7_bias m ρ c
  have hw : Third.arrW (V7 m ρ) c = m ((c : Thread nD τ).loc main_arg6) := W7_arg6 m ρ c
  have hb' : Third.arrB' (V7 m ρ) c = shapeCast S1x16 (m ((c : Thread nD τ).loc main_arg7)) shapeCasts_S16_S1x16 := W7_bias' m ρ c
  rw [ha, hb, hw, hb']
  exact layer32_eq _ _ _ _ _ _

end Cert.Bridge

end
-- ==== Proof.lean ====
/-
  A two-layer graph convolution followed by a linear layer, on 100000 nodes and 3200000 edges: three row-tiled
  kernels with host gather and scatter-add between them, against the plain reference.

  Both programs compute, over the extended reals, the same function of the arguments: x·W1; each edge (self-loops
  appended) gathers its source node's row, scales it by the product of its end nodes' inverse square-root degrees, and
  the scaled rows are summed into their destination nodes; the bias b1 is added, the result clipped below at zero and
  multiplied by W2; the rows are spread again the same way; b2 is added, the result clipped and multiplied by Wfc, and
  bfc is added. The kernel program does each product, with the bias and clip before it, twenty times on blocks of 5000
  rows; a product's entry (r, q) reads only row r of its left factor, so the blocks of the result are the rows of the
  whole product, and rounding the factors to a narrower format is the identity over the extended reals. The gather and
  scatter-add are the same host operations on both sides, on the same indices. Nothing is rearranged across a sum, so
  no argument needs to be finite: the precondition is not opened.

  The frames of the two kernel programs are the generated ones; the reference's frame is its run with the result
  dropped; the idealization rewrote no operation, so there is nothing to preserve.
-/
import proofs.«177915_j1675037246076_1_alg».proof.Defs
import proofs.«177915_j1675037246076_1_alg».proof.Proof.Gen.Kernel
import proofs.«177915_j1675037246076_1_alg».proof.Proof.Gen.Kernel.Skeleton
import proofs.«177915_j1675037246076_1_alg».proof.Proof.Gen.Kernel.Launch
import proofs.«177915_j1675037246076_1_alg».proof.Proof.Gen.Kernel.Points
import proofs.«177915_j1675037246076_1_alg».proof.Proof.Gen.Kernel.Frame
import proofs.«177915_j1675037246076_1_alg».proof.Proof.Gen.KernelIdeal
import proofs.«177915_j1675037246076_1_alg».proof.Proof.Gen.KernelIdeal.Skeleton
import proofs.«177915_j1675037246076_1_alg».proof.Proof.Gen.KernelIdeal.Launch
import proofs.«177915_j1675037246076_1_alg».proof.Proof.Gen.KernelIdeal.Points
import proofs.«177915_j1675037246076_1_alg».proof.Proof.Gen.KernelIdeal.Frame
import proofs.«177915_j1675037246076_1_alg».proof.Proof.Gen.ReferenceIdeal
import proofs.«177915_j1675037246076_1_alg».proof.Proof.Gen.Pre_finite_inputs
import proofs.«177915_j1675037246076_1_alg».proof.Proof.KernelRun
import proofs.«177915_j1675037246076_1_alg».proof.Proof.RefRun
import proofs.«177915_j1675037246076_1_alg».proof.Proof.RefRead
import proofs.«177915_j1675037246076_1_alg».proof.Proof.Bridge
import Idealize.ShloMosaic.Adequacy
import Idealize.ShloMosaic.Init

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's function of the arguments in
    their result buffers: the kernel program by the three kernels' results and the host operations between them, the
    reference by its own run. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.third_result m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
